-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S32768x8192 : Shape := ⟨2, ![32768, 8192]⟩
abbrev S32768 : Shape := ⟨1, ![32768]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S64x8192 .f32) (main_arg1 : IVec S32768x8192 32) (main_arg2 : FVec F S32768 .f32) (main_arg3 : FVec F S32768 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S32768 .f32 := Host.absf main_arg2
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S32768 .f32 := Host.absf main_arg3
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  main_v13
-- ==== Kernel.lean ====
abbrev S64x8192 : Shape := ⟨2, ![64, 8192]⟩
abbrev S32768x8192 : Shape := ⟨2, ![32768, 8192]⟩
abbrev S32768 : Shape := ⟨1, ![32768]⟩
abbrev S1x32768 : Shape := ⟨2, ![1, 32768]⟩
abbrev S64x32768 : Shape := ⟨2, ![64, 32768]⟩
abbrev S512x8192 : Shape := ⟨2, ![512, 8192]⟩
abbrev S1x512 : Shape := ⟨2, ![1, 512]⟩
abbrev S64x512 : Shape := ⟨2, ![64, 512]⟩
abbrev S64x1024 : Shape := ⟨2, ![64, 1024]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S64x8192, .f32⟩
  | .hbm, ⟨1, _⟩ => ⟨S32768x8192, .i32⟩
  | .hbm, ⟨2, _⟩ => ⟨S32768, .f32⟩
  | .hbm, ⟨3, _⟩ => ⟨S32768, .f32⟩
  | .hbm, ⟨4, _⟩ => ⟨S64x8192, .bf16⟩
  | .hbm, ⟨5, _⟩ => ⟨S1x32768, .f32⟩
  | .hbm, ⟨6, _⟩ => ⟨S1x32768, .f32⟩
  | .hbm, ⟨7, _⟩ => ⟨S64x32768, .f32⟩
  | .local _ .vmem, ⟨0, _⟩ => ⟨S64x8192, .bf16⟩
  | .local _ .vmem, ⟨1, _⟩ => ⟨S512x8192, .i32⟩
  | .local _ .vmem, ⟨2, _⟩ => ⟨S512x8192, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S64x512, .f32⟩
  | .local _ .vmem, ⟨8, _⟩ => ⟨S64x512, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k0_off2 (c0_i32 : BitVec 32) : Fin 2 → Nat :=
  let c0_0 : Index := 0#32
  let c1024_i32 : BitVec 32 := 1024#32
  let v1 : BitVec 32 := Scalar.muli c0_i32 c1024_i32
  let v2 : BitVec 32 := v1
  let v6 : Index := Scalar.indexCast v2
  ![0, v6.toNat]
def k0_mult2 : BitVec 32 :=
  let c1_i32 : BitVec 32 := 1#32
  let c1024_i32_2 : BitVec 32 := 1024#32
  let v11 : BitVec 32 := Scalar.muli c1_i32 c1024_i32_2
  v11
def k0_mult3 : BitVec 32 :=
  let c2_i32 : BitVec 32 := 2#32
  let c1024_i32_6 : BitVec 32 := 1024#32
  let v21 : BitVec 32 := Scalar.muli c2_i32 c1024_i32_6
  v21
def k0_mult4 : BitVec 32 :=
  let c3_i32 : BitVec 32 := 3#32
  let c1024_i32_10 : BitVec 32 := 1024#32
  let v31 : BitVec 32 := Scalar.muli c3_i32 c1024_i32_10
  v31
def k0_mult5 : BitVec 32 :=
  let c4_i32 : BitVec 32 := 4#32
  let c1024_i32_14 : BitVec 32 := 1024#32
  let v41 : BitVec 32 := Scalar.muli c4_i32 c1024_i32_14
  v41
def k0_mult6 : BitVec 32 :=
  let c5_i32 : BitVec 32 := 5#32
  let c1024_i32_18 : BitVec 32 := 1024#32
  let v51 : BitVec 32 := Scalar.muli c5_i32 c1024_i32_18
  v51
def k0_mult7 : BitVec 32 :=
  let c6_i32 : BitVec 32 := 6#32
  let c1024_i32_22 : BitVec 32 := 1024#32
  let v61 : BitVec 32 := Scalar.muli c6_i32 c1024_i32_22
  v61
def k0_mult8 : BitVec 32 :=
  let c7_i32 : BitVec 32 := 7#32
  let c1024_i32_26 : BitVec 32 := 1024#32
  let v71 : BitVec 32 := Scalar.muli c7_i32 c1024_i32_26
  v71
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S32768_S1x32768 : S32768.ShapeCasts S1x32768
  h_S64x1024 : 0 < S64x1024.numel
  shapeCasts_S64x1024_S64x1024 : S64x1024.ShapeCasts S64x1024
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  dot_S64x1024_S512x1024_S64x512_1_1_0_0_n_n_wf : DotDims.WF S64x1024 S512x1024 S64x512 [1] [1] [0] [0] [] []
  hrank0 : 0 < grid0.rank
  k0_mult1_dvd : 1024 ∣ k0_mult1.toNat
  k0_off1_inb : ∀ (r : Fin 8), ∀ a, (k0_off1 (BitVec.ofNat 32 r.val)) a + S64x1024.size a ≤ S64x8192.size a
  k0_off2_inb : ∀ (r : Fin 8), ∀ a, (k0_off2 (BitVec.ofNat 32 r.val)) a + S512x1024.size a ≤ S512x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .bf16 = 32 ∨ (Rect.block (s := S64x8192) S64x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S32768x8192.size a
  hwx0_1 : ∀ i : grid0.Coords, EltTy.bits .i32 = 32 ∨ (Rect.block (s := S32768x8192) S512x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x32768.size a
  hwx0_2 : ∀ i : grid0.Coords, EltTy.bits .f32 = 32 ∨ (Rect.block (s := S1x32768) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x32768.size a
  hwx0_3 : ∀ i : grid0.Coords, EltTy.bits .f32 = 32 ∨ (Rect.block (s := S1x32768) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x32768.size a
  hwx0_4 : ∀ i : grid0.Coords, EltTy.bits .f32 = 32 ∨ (Rect.block (s := S64x32768) S64x512.size (cc0_transform_4 i) (hinb0_4 i)).WholeWords (EltTy.packing .f32)

variable [Facts₀]

def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf

abbrev win0_0 : Pipeline.Window sig grid0 :=
  Pipeline.Window.ofSpec (Memref.whole main_v0) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x8192 : Shape := ⟨2, ![64, 8192]⟩
abbrev S32768x8192 : Shape := ⟨2, ![32768, 8192]⟩
abbrev S32768 : Shape := ⟨1, ![32768]⟩
abbrev S64x32768 : Shape := ⟨2, ![64, 32768]⟩
abbrev S1x32768 : Shape := ⟨2, ![1, 32768]⟩

abbrev nBuf : Space → Nat
  | .hbm => 12
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S32768x8192, .i32⟩
  | .hbm, ⟨2, _⟩ => ⟨S32768, .f32⟩
  | .hbm, ⟨3, _⟩ => ⟨S32768, .f32⟩
  | .hbm, ⟨4, _⟩ => ⟨S32768x8192, .f32⟩
  | .hbm, ⟨5, _⟩ => ⟨S64x32768, .f32⟩
  | .hbm, ⟨6, _⟩ => ⟨S1x32768, .f32⟩
  | .hbm, ⟨7, _⟩ => ⟨S64x32768, .f32⟩
  | .hbm, ⟨8, _⟩ => ⟨S64x32768, .f32⟩
  | .hbm, ⟨9, _⟩ => ⟨S1x32768, .f32⟩
  | .hbm, ⟨10, _⟩ => ⟨S64x32768, .f32⟩
  | .hbm, ⟨11, _⟩ => ⟨S64x32768, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S32768_S1x32768_1 : S32768.BroadcastsInDim S1x32768 (![1] : Fin 1 → Fin S1x32768.rank)
  bcast_S1x32768_S64x32768_0_1 : S1x32768.BroadcastsInDim S64x32768 (![0, 1] : Fin 2 → Fin S64x32768.rank)
  dot_S64x8192_S32768x8192_S64x32768_1_1_0_0_n_n_wf : DotDims.WF S64x8192 S32768x8192 S64x32768 [1] [1] [0] [0] [] []

variable [Facts₀]

def dot_S64x8192_S32768x8192_S64x32768_1_1_0_0_n_n : DotDims S64x8192 S32768x8192 S64x32768 where
  lhsContracting := [1]
  rhsContracting := [1]
  lhsNonContracting := [0]
  rhsNonContracting := [0]
  lhsBatch := []
  rhsBatch := []
  wf := dot_S64x8192_S32768x8192_S64x32768_1_1_0_0_n_n_wf

class Facts : Prop extends Facts₀ where

variable [Facts]
-- ==== Proof.LibRow.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.LibRow

open Idealize.ShloMosaic Idealize.ShloMosaic.ValueIdx

/-! ## A product with the right operand transposed, read at an index

For dimension numbers that contract axis 1 of BOTH operands, keep axis 0 of each and batch nothing, the operand
indices at output index (p, q) and contraction position k are (p, k) and (q, k): the product at (p, q) is the sum
over k of lhs (p, k) * rhs (q, k), the inner product of row p of the left operand with row q of the right one. -/

section MatmulNT
variable {M K N : ℕ} (d : DotDims ⟨2, ![M, K]⟩ ⟨2, ![N, K]⟩ ⟨2, ![M, N]⟩)

/-- The contracted shape has one axis. -/
theorem contr_rank (hlc : d.lhsContracting = [1]) : d.contr.rank = 1 := by
  rw [d.rank_contr, hlc]; rfl

/-- The contracted shape's one axis has the left operand's column count. -/
theorem contr_size (hlc : d.lhsContracting = [1]) :
    d.contr.size ⟨0, by rw [contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (kept): the output's row coordinate. -/
theorem lhsIdx_axis0 (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- Left operand, axis 1 (contracted): the contraction position's one coordinate. -/
theorem lhsIdx_axis1 (hlc : d.lhsContracting = [1])
    (j : (⟨2, ![M, N]⟩ : Shape).Idx) (k : d.contr.Idx) :
    (d.lhsIdx j k 1).val = (k ⟨0, by rw [contr_rank d hlc]; exact Nat.one_pos⟩).val :=
  d.lhsIdx_val_of_single hlc j k

/-- Right operand, axis 0 (kept): the output's column coordinate. -/
theorem rhsIdx_axis0 (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- Right operand, axis 1 (contracted): the contraction position's one coordinate. -/
theorem rhsIdx_axis1 (hlc : d.lhsContracting = [1]) (hrc : d.rhsContracting = [1])
    (j : (⟨2, ![M, N]⟩ : Shape).Idx) (k : d.contr.Idx) :
    (d.rhsIdx j k 1).val = (k ⟨0, by rw [contr_rank d hlc]; exact Nat.one_pos⟩).val :=
  d.rhsIdx_val_of_single hrc j k

/-- An [M,K]·[N,K]ᵀ product into the zero accumulator reads, at (p, q), the sum over k of lhs (p, k) * rhs (q, k). -/
theorem matmul_nt_zero_ix2 {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (lhs : FVec Ideal ⟨2, ![M, K]⟩ φ₁) (rhs : FVec Ideal ⟨2, ![N, K]⟩ φ₂)
    (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have hl : d.lhsIdx (ix2 p q) ((contrEquiv1 d K (contr_rank d hlc) (contr_size d hlc)).symm k) = ix2 p k := by
    funext a
    refine Fin.ext ?_
    match a with
    | ⟨0, _⟩ => exact lhsIdx_axis0 d hln hlb _ _
    | ⟨1, _⟩ => exact (lhsIdx_axis1 d hlc _ _).trans hk
  have hr : d.rhsIdx (ix2 p q) ((contrEquiv1 d K (contr_rank d hlc) (contr_size d hlc)).symm k) = ix2 q k := by
    funext a
    refine Fin.ext ?_
    match a with
    | ⟨0, _⟩ => exact rhsIdx_axis0 d hln hrn hlb hrb _ _
    | ⟨1, _⟩ => exact (rhsIdx_axis1 d hlc hrc _ _).trans hk
  rw [hl, hr]

end MatmulNT

/-! ## A column over many columns, and two blocks side by side -/

section Layout
variable {α : Type}

/-- An [m, 1] column broadcast to [m, n] reads, at (p, q), the column at p. -/
theorem broadcastTo_col_apply {m n : ℕ} (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    split
    · have := p.isLt; omega
    · rfl
  | ⟨1, _⟩ => rfl

/-- [m, a] and [m, b] joined along axis 1 into [m, c] read, at a column q below a, the first block at (p, q). -/
theorem concat_cols_left {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (q : Fin c) (q' : Fin a)
    (hq : q'.val = q.val) :
    concatenate ⟨2, ![m, c]⟩ 1 [⟨⟨2, ![m, a]⟩, x₁⟩, ⟨⟨2, ![m, b]⟩, x₂⟩] h (ix2 p q) = x₁ (ix2 p q') :=
  concatenate_pair_apply_left 1 x₁ x₂ h (ix2 p q) rfl (ix2 p q') (fun bx => by
    match bx with
    | ⟨0, _⟩ => rfl
    | ⟨1, _⟩ => exact hq)

/-- … and, at a column q from a on, the second block at (p, q - a). -/
theorem concat_cols_right {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (q : Fin c) (q' : Fin b)
    (hq : q'.val + a = q.val) :
    concatenate ⟨2, ![m, c]⟩ 1 [⟨⟨2, ![m, a]⟩, x₁⟩, ⟨⟨2, ![m, b]⟩, x₂⟩] h (ix2 p q) = x₂ (ix2 p q') :=
  concatenate_pair_apply_right 1 x₁ x₂ h (ix2 p q) rfl rfl (ix2 p q') (fun bx hbx => by
    match bx with
    | ⟨0, _⟩ => rfl
    | ⟨1, _⟩ => exact absurd rfl hbx) hq

end Layout

/-! ## Two readings at the extended reals -/

/-- A square root of an array reads, at an index, the extended reals' square root of the entry. -/
theorem sqrt_apply {s : Shape} {φ : FTy} (v : FVec Ideal s φ) (i : s.Idx) : sqrt v i = Ideal.sqrt (v i) := rfl

/-- A scalar literal is the extended real its word encodes. -/
theorem scalar_ofBits (φ : FTy) (w : BitVec φ.bits) : Scalar.ofBits (F := Ideal) φ w = Ideal.ofBits φ w := rfl

/-! ## A row's sum of squares through a lane reduction kept as a column -/

/-- The add-reduction over axis 1 of the elementwise square of an [m, n] array, cast to an [m, 1] column, reads at
    (p, u) the sum over k of the square of the array at (p, k). -/
theorem rowsq_col_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) (p : Fin m) (u : Fin 1) :
    shapeCast ⟨2, ![m, 1]⟩ (multiReduction .add [1] ⟨1, ![m]⟩ (mulf v v) acc h hφ hacc) hc (ix2 p u)
      = ∑ k : Fin n, v (ix2 p k) * v (ix2 p k) := by
  refine (shapeCast_apply _ hc (ix2 p u) (ix1 p) (by
    have hu : u.val = 0 := by omega
    rw [Shape.rowMajor_val_two, Shape.rowMajor_val_one]
    show p.val = p.val * 1 + u.val
    rw [hu, Nat.mul_one, Nat.add_zero])).trans ?_
  rw [Ideal.multiReduction_add_single]
  refine Finset.sum_congr rfl fun k _ => ?_
  have e : h.lift (ix1 p) k = ix2 p k := funext fun e => Fin.ext (by
    match e with
    | ⟨0, _⟩ => rfl
    | ⟨1, _⟩ => rfl)
  rw [e]
  rfl

/-- The add-reduction over axis 1 of an [m, n] array, cast to an [m, 1] column, reads at (p, u) the sum over k of the
    array at (p, k). -/
theorem rowsum_col_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) (p : Fin m) (u : Fin 1) :
    shapeCast ⟨2, ![m, 1]⟩ (multiReduction .add [1] ⟨1, ![m]⟩ v acc h hφ hacc) hc (ix2 p u)
      = ∑ k : Fin n, v (ix2 p k) := by
  refine (shapeCast_apply _ hc (ix2 p u) (ix1 p) (by
    have hu : u.val = 0 := by omega
    rw [Shape.rowMajor_val_two, Shape.rowMajor_val_one]
    show p.val = p.val * 1 + u.val
    rw [hu, Nat.mul_one, Nat.add_zero])).trans ?_
  rw [Ideal.multiReduction_add_single]
  refine Finset.sum_congr rfl fun k _ => ?_
  exact congrArg v (funext fun e => Fin.ext (by
    match e with
    | ⟨0, _⟩ => rfl
    | ⟨1, _⟩ => rfl))

/-- The add-reduction over axis 1 of the elementwise square of an [m, n] array, cast to a [1, m] row, reads at
    (u, p) the sum over k of the square of the array at (p, k). -/
theorem rowsq_row_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![1, m]⟩) (u : Fin 1) (p : Fin m) :
    shapeCast ⟨2, ![1, m]⟩ (multiReduction .add [1] ⟨1, ![m]⟩ (mulf v v) acc h hφ hacc) hc (ix2 u p)
      = ∑ k : Fin n, v (ix2 p k) * v (ix2 p k) := by
  refine (shapeCast_a_1a_apply _ hc u p).trans ?_
  rw [Ideal.multiReduction_add_single]
  refine Finset.sum_congr rfl fun k _ => ?_
  have e : h.lift (ix1 p) k = ix2 p k := funext fun e => Fin.ext (by
    match e with
    | ⟨0, _⟩ => rfl
    | ⟨1, _⟩ => rfl)
  rw [e]
  rfl

end Cert.LibRow

end
-- ==== Proof.ChunkSum.lean ====
import Idealize.ShloMosaic.PureOps.Ideal
import Idealize.ShloMosaic.Lib.ValueIdx

/-!
# A sum over 8192 positions taken in eight stretches of 1024

The contraction axis has 8192 positions. Position `j` lies in stretch `j / 1024` at offset `j % 1024`, and the pair
(stretch, offset) runs over `Fin 8 × Fin 1024` exactly once as `j` runs over `Fin 8192`. So in any commutative
monoid a sum over the axis is the sum over the stretches of the sums inside each stretch; written out, it is the
eight partial sums added from left to right onto zero. Only commutativity and associativity of addition are used,
so the law holds on the extended reals with no finiteness assumption.
-/

open scoped BigOperators

namespace Cert.ChunkSum

/-- Position `c * 1024 + k` of the contraction axis: offset `k` inside stretch `c`. -/
def pos (c : Fin 8) (k : Fin 1024) : Fin 8192 :=
  ⟨c.val * 1024 + k.val, by have := c.isLt; have := k.isLt; omega⟩

@[simp] theorem pos_val (c : Fin 8) (k : Fin 1024) : (pos c k).val = c.val * 1024 + k.val := rfl

/-- (stretch, offset) ↦ position is a bijection of `Fin 8 × Fin 1024` with `Fin 8192`: its inverse is quotient and
    remainder by 1024. -/
def split : Fin 8 × Fin 1024 ≃ Fin 8192 where
  toFun p := pos p.1 p.2
  invFun j := (⟨j.val / 1024, by have := j.isLt; omega⟩, ⟨j.val % 1024, by omega⟩)
  left_inv p := by
    obtain ⟨c, k⟩ := p
    have hc := c.isLt; have hk := k.isLt
    refine Prod.ext (Fin.ext ?_) (Fin.ext ?_)
    · show (c.val * 1024 + k.val) / 1024 = c.val
      omega
    · show (c.val * 1024 + k.val) % 1024 = k.val
      omega
  right_inv j := by
    refine Fin.ext ?_
    show j.val / 1024 * 1024 + j.val % 1024 = j.val
    omega

/-- A sum over the axis is the sum over the stretches of the sums inside each stretch. -/
theorem sum_eq_sum_stretches {M : Type} [AddCommMonoid M] (g : Fin 8192 → M) :
    ∑ j : Fin 8192, g j = ∑ c : Fin 8, ∑ k : Fin 1024, g (pos c k) := by
  rw [← Equiv.sum_comp split g, Fintype.sum_prod_type]
  rfl

/-- The eight partial sums added from left to right onto zero are the sum over the whole axis. -/
theorem accumulate_eq_sum {M : Type} [AddCommMonoid M] (g : Fin 8192 → M) :
    0 + (∑ k : Fin 1024, g (pos 0 k)) + (∑ k : Fin 1024, g (pos 1 k)) + (∑ k : Fin 1024, g (pos 2 k))
        + (∑ k : Fin 1024, g (pos 3 k)) + (∑ k : Fin 1024, g (pos 4 k)) + (∑ k : Fin 1024, g (pos 5 k))
        + (∑ k : Fin 1024, g (pos 6 k)) + (∑ k : Fin 1024, g (pos 7 k))
      = ∑ j : Fin 8192, g j := by
  rw [sum_eq_sum_stretches, Fin.sum_univ_eight, zero_add]

end Cert.ChunkSum
-- ==== Proof.Body.lean ====
import proofs.«411241_j61753039782356_3_alg».proof.Proof.Gen.KernelIdeal.Frame
import Idealize.ShloMosaic.Lib.Pipeline.Value
import Idealize.ShloMosaic.Lib.ValueLayout
import proofs.«411241_j61753039782356_3_alg».proof.Proof.LibRow
import proofs.«411241_j61753039782356_3_alg».proof.Proof.ChunkSum

/-!
# What one grid point stores

At a grid point the body holds the whole activations block `[64, 8192]`, a block of 512 weight rows `[512, 8192]`
and the 512 scales and biases of those channels. It walks the contraction axis in eight stretches of 1024 columns:
for each stretch it converts the weight words to floats, multiplies the activations' columns of the stretch with the
weights' columns of the stretch (contracting the column axis of both) into a zero accumulator, and adds the product
to a running total that starts at zero. The total times the scales' row plus the biases' row is stored over the
whole output block `[64, 512]`.

First, for any float instance, the stored value is one function of the four input blocks. Then, on the extended
reals, its entry (p, q) is: the inner product of row p of the activations with row q of the weight block read as
signed integers — by the law that a sum over 8192 positions is its eight stretches added onto zero — times scale q
plus bias q.
-/

set_option maxRecDepth 16384

noncomputable section

open scoped BigOperators

namespace Cert.KernelIdeal.Body

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- The zero offsets of a whole-block access. -/
theorem zero_off : (![0, 0] : Fin 2 → Nat) = fun _ => 0 := funext fun a => by fin_cases a <;> rfl

/-- 1024 columns from column `o` lie inside the activations' block. -/
theorem xcols_inb (o : ℕ) (ho : o + 1024 ≤ 8192) :
    ∀ a, (![0, o] : Fin 2 → Nat) a + S64x1024.size a ≤ S64x8192.size a := fun a => by
  match a with
  | ⟨0, _⟩ => exact Nat.le_refl 64
  | ⟨1, _⟩ => exact ho

/-- 1024 columns from column `o` lie inside the weights' block. -/
theorem wcols_inb (o : ℕ) (ho : o + 1024 ≤ 8192) :
    ∀ a, (![0, o] : Fin 2 → Nat) a + S512x1024.size a ≤ S512x8192.size a := fun a => by
  match a with
  | ⟨0, _⟩ => exact Nat.le_refl 512
  | ⟨1, _⟩ => exact ho

/-- Columns `o … o + 1023` of the activations' block. -/
def xcols (x0 : Vec F S64x8192 .bf16) (o : ℕ) (ho : o + 1024 ≤ 8192) : Vec F S64x1024 .bf16 :=
  View.ld x0 (Rect.unit ![0, o] S64x1024.size (xcols_inb o ho))

/-- Columns `o … o + 1023` of the weights' block. -/
def wcols (x1 : Vec F S512x8192 .i32) (o : ℕ) (ho : o + 1024 ≤ 8192) : Vec F S512x1024 .i32 :=
  View.ld x1 (Rect.unit ![0, o] S512x1024.size (wcols_inb o ho))

/-- The value the body stores over the output block, from the four input blocks: the three stages of the running
    total (stretches 0–2, then 3–6, then 7 with the scale and the bias) composed. -/
def stored (x0 : Vec F S64x8192 .bf16) (x1 : Vec F S512x8192 .i32) (x2 x3 : Vec F S1x512 .f32) : Vec F S64x512 .f32 :=
  k0_pay1
    (k0_pay5
      (k0_pay2 (xcols x0 0 (by decide)) (wcols x1 0 (by decide)) (xcols x0 1024 (by decide)) (wcols x1 1024 (by decide))
        (xcols x0 2048 (by decide)) (wcols x1 2048 (by decide)))
      (k0_pay3 (xcols x0 3072 (by decide))) (k0_pay4 (wcols x1 3072 (by decide)))
      (xcols x0 4096 (by decide)) (wcols x1 4096 (by decide)) (xcols x0 5120 (by decide)) (wcols x1 5120 (by decide))
      (xcols x0 6144 (by decide)) (wcols x1 6144 (by decide)))
    (k0_pay6 (xcols x0 7168 (by decide))) (k0_pay7 (wcols x1 7168 (by decide))) x2 x3

/-- What the run leaves in the output's staging buffer is the stored value of the input blocks: the one store covers
    the block, and each load reads its block's contents through its rectangle. -/
theorem out_eq_stored (c : Dev nD) (i : grid0.Coords) (arg1 : Memref sig .tc .vmem S64x8192 .bf16) (harg1 : arg1.IsWhole)
    (arg2 : Memref sig .tc .vmem S512x8192 .i32) (harg2 : arg2.IsWhole) (arg3 : Memref sig .tc .vmem S1x512 .f32) (harg3 : arg3.IsWhole)
    (arg4 : Memref sig .tc .vmem S1x512 .f32) (harg4 : arg4.IsWhole) (arg5 : Memref sig .tc .vmem S64x512 .f32) (harg5 : arg5.IsWhole)
    (x0 : Vec F S64x8192 .bf16) (x1 : Vec F S512x8192 .i32) (x2 : Vec F S1x512 .f32) (x3 : Vec F S1x512 .f32) :
    out0_A_4 c i arg1 harg1 arg2 harg2 arg3 harg3 arg4 harg4 arg5 harg5 x0 x1 x2 x3 = stored x0 x1 x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero zero_off]
  simp only [View.readAt_eq_ld, harg1.read_unread, harg2.read_unread, harg3.read_unread, harg4.read_unread,
    View.ld_unit_zero (S := S1x512) zero_off]
  rfl

end Cert.KernelIdeal.Body

end
-- ==== Proof.BodyEntry.lean ====
import proofs.«411241_j61753039782356_3_alg».proof.Proof.Body

/-!
# The stored value at an entry, on the extended reals

Entry (p, q) of the value a grid point stores is the inner product of row p of the activations' block with row q of
the weights' block (its words read as signed integers), times scale q, plus bias q. Each stretch's product into a
zero accumulator is that stretch's partial inner product; the running total adds the eight of them onto zero, which is
the whole inner product.
-/

set_option maxRecDepth 16384

noncomputable section

open scoped BigOperators

namespace Cert.KernelIdeal.Body

open Idealize.ShloMosaic Idealize.ShloMosaic.TcCoe Idealize.ShloMosaic.ValueIdx
open Idealize.SL Idealize.SL.Sem
open Cert.KernelIdeal Cert.KernelIdeal.Gen

variable {F : FTy → Type} [FloatOps F]

/-- Entry (p, k) of the activations' columns from `o` is the block's entry (p, o + k). -/
theorem xcols_apply (x0 : Vec F S64x8192 .bf16) (o : ℕ) (ho : o + 1024 ≤ 8192) (p : Fin 64) (k : Fin 1024) :
    xcols x0 o ho (ix2 p k) = x0 (ix2 p ⟨o + k.val, by have := k.isLt; omega⟩) := by
  unfold xcols
  show x0 _ = x0 _
  refine congrArg x0 (funext fun a => Fin.ext ?_)
  match a with
  | ⟨0, _⟩ => show 0 + 1 * p.val = p.val; omega
  | ⟨1, _⟩ => show o + 1 * k.val = o + k.val; omega

/-- Entry (q, k) of the weights' columns from `o` is the block's entry (q, o + k). -/
theorem wcols_apply (x1 : Vec F S512x8192 .i32) (o : ℕ) (ho : o + 1024 ≤ 8192) (q : Fin 512) (k : Fin 1024) :
    wcols x1 o ho (ix2 q k) = x1 (ix2 q ⟨o + k.val, by have := k.isLt; omega⟩) := by
  unfold wcols
  show x1 _ = x1 _
  refine congrArg x1 (funext fun a => Fin.ext ?_)
  match a with
  | ⟨0, _⟩ => show 0 + 1 * q.val = q.val; omega
  | ⟨1, _⟩ => show o + 1 * k.val = o + k.val; omega

/-- One stretch: the activations' 1024 columns against the converted weights' 1024 columns, contracted along the
    columns into a zero accumulator, is at (p, q) the partial inner product over the stretch. -/
theorem stretch_apply (xs : FVec Ideal S64x1024 .bf16) (ws : Vec Ideal S512x1024 .i32) (p : Fin 64) (q : Fin 512) :
    FloatOps.matmul dot_S64x1024_S512x1024_S64x512_1_1_0_0_n_n none xs (sitofp (F := Ideal) .bf16 ws)
        (constant S64x512 .f32 0x00000000#32) (ix2 p q)
      = ∑ k : Fin 1024, xs (ix2 p k) * (((ws (ix2 q k)).toInt : ℝ) : EReal) :=
  Cert.LibRow.matmul_nt_zero_ix2 dot_S64x1024_S512x1024_S64x512_1_1_0_0_n_n rfl rfl rfl rfl rfl rfl none xs
    (sitofp (F := Ideal) .bf16 ws) p q

/-- Stretches 0, 1, 2 added onto zero. -/
theorem first_stage_apply (v4 v14 v24 : Vec Ideal S64x1024 .bf16) (v7 v17 v27 : Vec Ideal S512x1024 .i32) (p : Fin 64) (q : Fin 512) :
    k0_pay2 (F := Ideal) v4 v7 v14 v17 v24 v27 (ix2 p q)
      = 0 + (∑ k : Fin 1024, v4 (ix2 p k) * (((v7 (ix2 q k)).toInt : ℝ) : EReal))
          + (∑ k : Fin 1024, v14 (ix2 p k) * (((v17 (ix2 q k)).toInt : ℝ) : EReal))
          + (∑ k : Fin 1024, v24 (ix2 p k) * (((v27 (ix2 q k)).toInt : ℝ) : EReal)) := by
  rw [← stretch_apply v4 v7 p q, ← stretch_apply v14 v17 p q, ← stretch_apply v24 v27 p q]
  unfold k0_pay2
  simp only [shapeCast_self]
  show ((Ideal.ofBits .f32 0x00000000#32 + _) + _) + _ = _
  rw [Ideal.ofBits_zero_f32]

/-- Stretches 3 to 6 added onto the running total; stretch 3's operands arrive already reshaped and converted. -/
theorem middle_stage_apply (v30 : FVec Ideal S64x512 .f32) (v35 : FVec Ideal S64x1024 .bf16) (v38 : FVec Ideal S512x1024 .bf16)
    (v44 v54 v64 : Vec Ideal S64x1024 .bf16) (v47 v57 v67 : Vec Ideal S512x1024 .i32) (p : Fin 64) (q : Fin 512) :
    k0_pay5 (F := Ideal) v30 v35 v38 v44 v47 v54 v57 v64 v67 (ix2 p q)
      = v30 (ix2 p q) + (∑ k : Fin 1024, v35 (ix2 p k) * v38 (ix2 q k))
          + (∑ k : Fin 1024, v44 (ix2 p k) * (((v47 (ix2 q k)).toInt : ℝ) : EReal))
          + (∑ k : Fin 1024, v54 (ix2 p k) * (((v57 (ix2 q k)).toInt : ℝ) : EReal))
          + (∑ k : Fin 1024, v64 (ix2 p k) * (((v67 (ix2 q k)).toInt : ℝ) : EReal)) := by
  rw [← Cert.LibRow.matmul_nt_zero_ix2 dot_S64x1024_S512x1024_S64x512_1_1_0_0_n_n rfl rfl rfl rfl rfl rfl none v35 v38 p q,
    ← stretch_apply v44 v47 p q, ← stretch_apply v54 v57 p q, ← stretch_apply v64 v67 p q]
  unfold k0_pay5
  simp only [shapeCast_self]
  rfl

/-- Stretch 7 added onto the running total, then the scales' row and the biases' row, each read at column q. -/
theorem last_stage_apply (v70 : FVec Ideal S64x512 .f32) (v75 : FVec Ideal S64x1024 .bf16) (v78 : FVec Ideal S512x1024 .bf16)
    (v81 v85 : Vec Ideal S1x512 .f32) (p : Fin 64) (q : Fin 512) :
    k0_pay1 (F := Ideal) v70 v75 v78 v81 v85 (ix2 p q)
      = (v70 (ix2 p q) + ∑ k : Fin 1024, v75 (ix2 p k) * v78 (ix2 q k)) * v81 (ix2 (0 : Fin 1) q) + v85 (ix2 (0 : Fin 1) q) := by
  rw [← Cert.LibRow.matmul_nt_zero_ix2 dot_S64x1024_S512x1024_S64x512_1_1_0_0_n_n rfl rfl rfl rfl rfl rfl none v75 v78 p q,
    ← broadcastTo_1b_ab_apply v81 broadcasts_S1x512_S64x512 p q, ← broadcastTo_1b_ab_apply v85 broadcasts_S1x512_S64x512 p q]
  unfold k0_pay1
  simp only [shapeCast_self]
  rfl

/-- ENTRY (p, q) OF THE STORED VALUE: the inner product over all 8192 positions of row p of the activations' block with
    row q of the weights' block read as signed integers, times scale q, plus bias q. The running total is the eight
    stretches' partial inner products added onto zero, which is the whole sum. -/
theorem stored_apply (x0 : Vec Ideal S64x8192 .bf16) (x1 : Vec Ideal S512x8192 .i32) (x2 x3 : Vec Ideal S1x512 .f32)
    (p : Fin 64) (q : Fin 512) :
    stored (F := Ideal) x0 x1 x2 x3 (ix2 p q)
      = (∑ j : Fin 8192, x0 (ix2 p j) * (((x1 (ix2 q j)).toInt : ℝ) : EReal)) * x2 (ix2 (0 : Fin 1) q)
          + x3 (ix2 (0 : Fin 1) q) := by
  unfold stored
  rw [last_stage_apply, middle_stage_apply, first_stage_apply]
  rw [← Cert.ChunkSum.accumulate_eq_sum (fun j => x0 (ix2 p j) * (((x1 (ix2 q j)).toInt : ℝ) : EReal))]
  simp only [k0_pay3, k0_pay4, k0_pay6, k0_pay7, sitofp, shapeCast_self, xcols_apply, wcols_apply]
  rfl

end Cert.KernelIdeal.Body

end
-- ==== Proof.Layer.lean ====
import Idealize.ShloMosaic.PureOps.Ideal
import Idealize.ShloMosaic.Lib.ValueIdx

/-!
# The dequantized linear layer, as one function of its four arrays

Activations `x : [64, 8192]`, weights `w : [32768, 8192]` stored as 32-bit words and read as signed integers,
one scale and one bias per output channel. Entry (m, n) of the result is the inner product of row m of the
activations with row n of the weights, times the channel's scale, plus the channel's bias — on the extended reals,
where a conversion of an integer to any float format is the integer itself.
-/

noncomputable section

open scoped BigOperators

namespace Cert.Layer

open Idealize.ShloMosaic Idealize.ShloMosaic.ValueIdx

/-- The weight word at (n, k), read as a signed integer, as an extended real. -/
def weight (w : IVec ⟨2, ![32768, 8192]⟩ 32) (n : Fin 32768) (k : Fin 8192) : EReal :=
  (((w (ix2 n k)).toInt : ℝ) : EReal)

/-- Row m of the activations against row n of the weights. -/
def inner (x : FVec Ideal ⟨2, ![64, 8192]⟩ .f32) (w : IVec ⟨2, ![32768, 8192]⟩ 32) (m : Fin 64) (n : Fin 32768) : EReal :=
  ∑ k : Fin 8192, x (ix2 m k) * weight w n k

/-- The layer: inner product, then the channel's scale, then the channel's bias. -/
def out (x : FVec Ideal ⟨2, ![64, 8192]⟩ .f32) (w : IVec ⟨2, ![32768, 8192]⟩ 32)
    (s b : FVec Ideal ⟨1, ![32768]⟩ .f32) : FVec Ideal ⟨2, ![64, 32768]⟩ .f32 :=
  fun i => inner x w (i 0) (i 1) * s (ix1 (i 1)) + b (ix1 (i 1))

end Cert.Layer

end
-- ==== Proof.KernelValue.lean ====
import proofs.«411241_j61753039782356_3_alg».proof.Proof.Gen.KernelIdeal.Value
import proofs.«411241_j61753039782356_3_alg».proof.Proof.BodyEntry
import proofs.«411241_j61753039782356_3_alg».proof.Proof.Layer
import Idealize.ShloMosaic.Lib.StableHlo.Run
import Idealize.ShloMosaic.Lib.ValueLayout

/-!
# The kernel's result array is the layer

The grid has 64 points. Point t holds the whole activations array (converted to bf16 before the call: the identity on
the extended reals), weight rows `512 t … 512 t + 511`, and columns `512 t … 512 t + 511` of the scales and biases
(each reshaped from `[32768]` to one row `[1, 32768]` before the call), and writes back columns
`512 t … 512 t + 511` of the result. So entry (p, q) of what point t writes back is the layer's entry
(p, 512 t + q); the 64 column blocks tile the result array, so the array ends holding the layer of the four arguments.
-/

set_option maxRecDepth 16384

noncomputable section

open scoped BigOperators

namespace Cert.KernelIdeal.Whole

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Value Cert.KernelIdeal.Body

variable (m : (ℓ : Loc nD τ sig) → Buf (Elt Ideal) ℓ) (ρ : Dev nD → PrngReg)

/-- The layer of the four argument arrays as launched. -/
abbrev result (c : Dev nD) : Buf (Elt Ideal) ((c : Thread nD τ).loc main_v3) :=
  Cert.Layer.out (m ((c : Thread nD τ).loc main_arg0)) (m ((c : Thread nD τ).loc main_arg1))
    (m ((c : Thread nD τ).loc main_arg2)) (m ((c : Thread nD τ).loc main_arg3))

/-! ## The arrays the region finds -/

/-- The activations converted to bf16 before the call are, on the extended reals, the activations. -/
theorem act_array (c : Dev nD) (i : S64x8192.Idx) :
    (V m c main_v0 : S64x8192.Idx → EReal) i = (m ((c : Thread nD τ).loc main_arg0) : S64x8192.Idx → EReal) i := by
  have e : (V m c main_v0 : S64x8192.Idx → EReal)
      = truncf (F := Ideal) .bf16 (m ((c : Thread nD τ).loc main_arg0)) bitsLt_bf16_f32 := by
    dsimp only [V, hostOps0]; after_results
  rw [e]
  rfl

/-- The scales reshaped to one row read, at column n, scale n. -/
theorem scale_row (c : Dev nD) (n : Fin 32768) :
    (V m c main_v1 : S1x32768.Idx → EReal) (ix2 (0 : Fin 1) n) = (m ((c : Thread nD τ).loc main_arg2) : S32768.Idx → EReal) (ix1 n) := by
  have e : (V m c main_v1 : S1x32768.Idx → EReal)
      = shapeCast S1x32768 (m ((c : Thread nD τ).loc main_arg2)) shapeCasts_S32768_S1x32768 := by
    dsimp only [V, hostOps0]; after_results; rfl
  rw [e]
  exact shapeCast_a_1a_apply _ shapeCasts_S32768_S1x32768 (0 : Fin 1) n

/-- The biases reshaped to one row read, at column n, bias n. -/
theorem bias_row (c : Dev nD) (n : Fin 32768) :
    (V m c main_v2 : S1x32768.Idx → EReal) (ix2 (0 : Fin 1) n) = (m ((c : Thread nD τ).loc main_arg3) : S32768.Idx → EReal) (ix1 n) := by
  have e : (V m c main_v2 : S1x32768.Idx → EReal)
      = shapeCast S1x32768 (m ((c : Thread nD τ).loc main_arg3)) shapeCasts_S32768_S1x32768 := by
    dsimp only [V, hostOps0]; after_results; rfl
  rw [e]
  exact shapeCast_a_1a_apply _ shapeCasts_S32768_S1x32768 (0 : Fin 1) n

/-! ## The blocks of a point -/

/-- The block index of each window at point t: the activations always block (0, 0); the weights row block t; the
    scales, the biases and the result column block t. Decided over the 64 points. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- A point index is below 64. -/
theorem point_lt (t : Fin cfg0.N) : t.val < 64 := Nat.lt_of_lt_of_eq t.isLt N_0

/-- Column `512 t + q` of the result, for a point t and a column q of its block. -/
def col (t : Fin cfg0.N) (q : Fin 512) : Fin 32768 :=
  ⟨512 * t.val + q.val, by have := point_lt t; have := q.isLt; omega⟩

/-- The activations' block at any point is the whole activations array. -/
theorem act_block (c : Dev nD) (t : Fin cfg0.N) (p : Fin 64) (j : Fin 8192) :
    (iblk m c 0 t : Vec Ideal S64x8192 .bf16) (ix2 p j) = (m ((c : Thread nD τ).loc main_arg0) : S64x8192.Idx → EReal) (ix2 p j) := by
  show (V m c main_v0 : S64x8192.Idx → EReal) (((cfg0.win 0).blk t).view.emb (ix2 p j)) = _
  rw [act_array]
  obtain ⟨e0, e1, -⟩ := idx_facts t
  refine congrArg _ (funext fun a => Fin.ext ?_)
  match a with
  | ⟨0, _⟩ => show win0_0.index t (0 : Fin 2) * 64 + 1 * p.val = p.val; omega
  | ⟨1, _⟩ => show win0_0.index t (1 : Fin 2) * 8192 + 1 * j.val = j.val; omega

/-- The weights' block at point t is weight rows `512 t …`. -/
theorem weight_block (c : Dev nD) (t : Fin cfg0.N) (q : Fin 512) (j : Fin 8192) :
    (iblk m c 1 t : Vec Ideal S512x8192 .i32) (ix2 q j) = (m ((c : Thread nD τ).loc main_arg1) : S32768x8192.Idx → BitVec 32) (ix2 (col t q) j) := by
  show V m c main_arg1 (((cfg0.win 1).blk t).view.emb (ix2 q j)) = _
  rw [V_main_arg1]
  obtain ⟨-, -, e0, e1, -⟩ := idx_facts t
  refine congrArg _ (funext fun a => Fin.ext ?_)
  match a with
  | ⟨0, _⟩ => show win0_1.index t (0 : Fin 2) * 512 + 1 * q.val = 512 * t.val + q.val; omega
  | ⟨1, _⟩ => show win0_1.index t (1 : Fin 2) * 8192 + 1 * j.val = j.val; omega

/-- The scales' block at point t is scales `512 t …`. -/
theorem scale_block (c : Dev nD) (t : Fin cfg0.N) (q : Fin 512) :
    (iblk m c 2 t : Vec Ideal S1x512 .f32) (ix2 (0 : Fin 1) q) = (m ((c : Thread nD τ).loc main_arg2) : S32768.Idx → EReal) (ix1 (col t q)) := by
  show (V m c main_v1 : S1x32768.Idx → EReal) (((cfg0.win 2).blk t).view.emb (ix2 (0 : Fin 1) q)) = _
  rw [← scale_row m c (col t q)]
  obtain ⟨-, -, -, -, e0, e1, -⟩ := idx_facts t
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = 512 * t.val + q.val; omega

/-- The biases' block at point t is biases `512 t …`. -/
theorem bias_block (c : Dev nD) (t : Fin cfg0.N) (q : Fin 512) :
    (iblk m c 3 t : Vec Ideal S1x512 .f32) (ix2 (0 : Fin 1) q) = (m ((c : Thread nD τ).loc main_arg3) : S32768.Idx → EReal) (ix1 (col t q)) := by
  show (V m c main_v2 : S1x32768.Idx → EReal) (((cfg0.win 3).blk t).view.emb (ix2 (0 : Fin 1) q)) = _
  rw [← bias_row m c (col t q)]
  obtain ⟨-, -, -, -, -, -, e0, e1, -⟩ := idx_facts t
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * q.val = 512 * t.val + q.val; omega

/-! ## What a point writes back -/

/-- Entry (p, q) of the value point t stores is the layer's entry (p, 512 t + q). -/
theorem stored_entry (c : Dev nD) (t : Fin cfg0.N) (p : Fin 64) (q : Fin 512) :
    stored (F := Ideal) (iblk m c 0 t) (iblk m c 1 t) (iblk m c 2 t) (iblk m c 3 t) (ix2 p q)
      = result m c (ix2 p (col t q)) := by
  rw [stored_apply, scale_block, bias_block]
  simp only [act_block, weight_block]
  rfl

/-- WHAT POINT t WRITES BACK is block t of the layer. -/
theorem flushed_eq (c : Dev nD) (t : Fin cfg0.N) :
    (dats m 0 c).flushed 4 t = ((cfg0.win 4).blk t).view.read (Elt Ideal) (result m c) := by
  rw [flushed4_A, out_eq_stored]
  funext y
  show stored (F := Ideal) (iblk m c 0 t) (iblk m c 1 t) (iblk m c 2 t) (iblk m c 3 t) y
    = result m c (((cfg0.win 4).blk t).view.emb y)
  obtain ⟨p, q, rfl⟩ : ∃ (p : Fin 64) (q : Fin 512), y = ix2 p q := ⟨y 0, y 1, eq_ix2 y⟩
  rw [stored_entry]
  obtain ⟨-, -, -, -, -, -, -, -, e0, e1⟩ := idx_facts t
  refine congrArg _ (funext fun a => Fin.ext ?_)
  match a with
  | ⟨0, _⟩ => show p.val = win0_4.index t (0 : Fin 2) * 64 + 1 * p.val; omega
  | ⟨1, _⟩ => show 512 * t.val + q.val = win0_4.index t (1 : Fin 2) * 512 + 1 * q.val; omega

/-! ## The column blocks tile the result -/

/-- An index of the result is in point t's block iff each coordinate is in the block's range on its axis. -/
theorem mem_block (t : Fin cfg0.N) (i : S64x32768.Idx) :
    i ∈ ((cfg0.win 4).blk t).view.set ↔ ∀ a : Fin 2, win0_4.index t a * S64x512.size a ≤ (i a).val
      ∧ (i a).val < win0_4.index t a * S64x512.size a + S64x512.size a := by
  show i ∈ ((View.whole main_v3).slice (win0_4.rect t)).set ↔ _
  rw [View.set_slice_whole, Rect.mem_set_unit]
  exact Iff.rfl

/-- Every index (r, n) of the result lies in the block of point `n / 512`, which writes back. -/
theorem cover (i : S64x32768.Idx) :
    ∃ t : Fin cfg0.N, (cfg0.win 4).flush t = true ∧ i ∈ ((cfg0.win 4).blk t).view.set := by
  have hi0 : (i 0).val < 64 := (i 0).isLt
  have hi1 : (i 1).val < 32768 := (i 1).isLt
  let t : Fin cfg0.N := ⟨(i 1).val / 512, by rw [show cfg0.N = 64 from N_0]; omega⟩
  have ht : t.val = (i 1).val / 512 := rfl
  obtain ⟨-, -, -, -, -, -, -, -, e0, e1⟩ := idx_facts t
  refine ⟨t, flush0_4 t, ?_⟩
  rw [mem_block]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 512 ≤ (i 1).val ∧ (i 1).val < win0_4.index t (1 : Fin 2) * 512 + 512; omega

/-- THE RESULT ARRAY after the run is the layer of the arguments. -/
theorem final (c : Dev nD) : (dats m 0 c).arrAt 4 cfg0.N = result m c :=
  (dats m 0 c).arrAt_eq_of_cover 4 (result m c) (fun t _ => flushed_eq m c t) cover

/-- The kernel's run with its result named: every weakly fair execution ends with the result array at the layer of
    the arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefLayer.lean ====
import proofs.«411241_j61753039782356_3_alg».proof.Proof.Gen.ReferenceIdeal.Read
import proofs.«411241_j61753039782356_3_alg».proof.Proof.Layer

/-!
# The reference computes the layer

The reference converts the weight words to floats (the integers themselves on the extended reals), contracts axis 1
of the activations with axis 1 of the weights in one product, and multiplies by the scales and adds the biases, each
broadcast from a row of 32768 channels to all 64 rows. Read at an index (m, n), stage by stage, that is the layer's
entry.
-/

noncomputable section

open scoped BigOperators

namespace Cert.RefLayer

open Idealize.ShloMosaic Idealize.ShloMosaic.ValueIdx Cert.ReferenceIdeal Cert.ReferenceIdeal.Read

/-- The product's left operand index at output (m, n) and contraction position k is (m, k). -/
theorem lidx_eq (i : S64x32768.Idx) (k : Fin 8192) : lidx_main_v1 i k = ix2 (i 0) k :=
  funext fun a => by match a with | ⟨0, _⟩ => rfl | ⟨1, _⟩ => rfl

/-- The product's right operand index at output (m, n) and contraction position k is (n, k). -/
theorem ridx_eq (i : S64x32768.Idx) (k : Fin 8192) : ridx_main_v1 i k = ix2 (i 1) k :=
  funext fun a => by match a with | ⟨0, _⟩ => rfl | ⟨1, _⟩ => rfl

/-- A channel row broadcast over the 64 rows is read at (m, n) from channel n. -/
theorem scale_idx_eq (i : S64x32768.Idx) : idx_main_v2 (idx_main_v3 i) = ix1 (i 1) :=
  funext fun a => by match a with | ⟨0, _⟩ => rfl

theorem bias_idx_eq (i : S64x32768.Idx) : idx_main_v5 (idx_main_v6 i) = ix1 (i 1) :=
  funext fun a => by match a with | ⟨0, _⟩ => rfl

/-- The reference's last stage is the layer. -/
theorem reference_eq (x0 : (⟨S64x8192, .f32⟩ : BufTy).Contents (Elt Ideal)) (x1 : (⟨S32768x8192, .i32⟩ : BufTy).Contents (Elt Ideal))
    (x2 x3 : (⟨S32768, .f32⟩ : BufTy).Contents (Elt Ideal)) :
    val_main_v7 (F := Ideal) x0 x1 x2 x3 = Cert.Layer.out x0 x1 x2 x3 := by
  funext i
  rw [val_main_v7_apply, val_main_v4_apply, val_main_v1_apply, val_main_v3_apply, val_main_v2_apply,
    val_main_v6_apply, val_main_v5_apply]
  simp only [val_main_v0_apply, lidx_eq, ridx_eq, scale_idx_eq, bias_idx_eq]
  rfl

end Cert.RefLayer

end
-- ==== Proof.lean ====
/-
  A dequantized linear layer: activations `x : [64, 8192]`, weights `w : [32768, 8192]` stored as 32-bit words and
  read as signed integers, a scale and a bias per output channel. The result's entry (m, n) is
      (Σ_k x[m, k] · w[n, k]) · scale[n] + bias[n].

  The reference converts the weights to floats, contracts in one product and applies the scale and the bias. The kernel
  walks 64 blocks of 512 output channels; inside a block it takes the contraction axis in eight stretches of 1024,
  converts each stretch of weights, multiplies it with the activations' stretch into a zero accumulator and adds the
  eight products onto a total that starts at zero, then applies the block's scales and biases.

  On the extended reals a conversion of an integer to any float format is the integer, a change of float format is
  the identity, and each product into a zero accumulator is a plain sum; so the kernel's total is the eight partial
  inner products added onto zero, which is the inner product over all 8192 positions by commutativity and
  associativity of addition alone (no finiteness is used). Both programs therefore compute the same function of the
  four arrays, entry by entry (`Cert.Layer.out`): the reference by its stages read at an index, the kernel by what each
  grid point stores and the fact that the 64 column blocks tile the result.
-/
import proofs.«411241_j61753039782356_3_alg».proof.Defs
import proofs.«411241_j61753039782356_3_alg».proof.Proof.Gen.Kernel
import proofs.«411241_j61753039782356_3_alg».proof.Proof.Gen.Kernel.Skeleton
import proofs.«411241_j61753039782356_3_alg».proof.Proof.Gen.Kernel.Launch
import proofs.«411241_j61753039782356_3_alg».proof.Proof.Gen.Kernel.Points
import proofs.«411241_j61753039782356_3_alg».proof.Proof.Gen.Kernel.Frame
import proofs.«411241_j61753039782356_3_alg».proof.Proof.Gen.KernelIdeal
import proofs.«411241_j61753039782356_3_alg».proof.Proof.Gen.KernelIdeal.Skeleton
import proofs.«411241_j61753039782356_3_alg».proof.Proof.Gen.KernelIdeal.Launch
import proofs.«411241_j61753039782356_3_alg».proof.Proof.Gen.KernelIdeal.Points
import proofs.«411241_j61753039782356_3_alg».proof.Proof.Gen.KernelIdeal.Frame
import proofs.«411241_j61753039782356_3_alg».proof.Proof.Gen.ReferenceIdeal
import proofs.«411241_j61753039782356_3_alg».proof.Proof.Gen.Pre_finite_inputs
import proofs.«411241_j61753039782356_3_alg».proof.Proof.Gen.KernelIdeal.Value
import proofs.«411241_j61753039782356_3_alg».proof.Proof.Gen.ReferenceIdeal.Run
import proofs.«411241_j61753039782356_3_alg».proof.Proof.Gen.ReferenceIdeal.Read
import proofs.«411241_j61753039782356_3_alg».proof.Proof.KernelValue
import proofs.«411241_j61753039782356_3_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the layer of those arguments in their
    result arrays: the kernel by its 64 column blocks, the reference by its stages read at an index. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.RefLayer.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
